-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S_ : Shape := ⟨0, ![]⟩

class Facts : Prop where
  bcast_S_S20000x1x32 : S_.BroadcastsInDim S20000x1x32 (![] : Fin 0 → Fin S20000x1x32.rank)
  reducesTo_S20000x1x32_S_d0_1_2 : S20000x1x32.ReducesTo [0, 1, 2] S_
  h_S_ : 0 < S_.numel
  bcast_S_S20000x3x32 : S_.BroadcastsInDim S20000x3x32 (![] : Fin 0 → Fin S20000x3x32.rank)
  reducesTo_S20000x3x32_S_d0_1_2 : S20000x3x32.ReducesTo [0, 1, 2] S_
  bcast_S_S20000x5x32 : S_.BroadcastsInDim S20000x5x32 (![] : Fin 0 → Fin S20000x5x32.rank)
  reducesTo_S20000x5x32_S_d0_1_2 : S20000x5x32.ReducesTo [0, 1, 2] S_
  bcast_S_S20000x7x32 : S_.BroadcastsInDim S20000x7x32 (![] : Fin 0 → Fin S20000x7x32.rank)
  reducesTo_S20000x7x32_S_d0_1_2 : S20000x7x32.ReducesTo [0, 1, 2] S_

variable [Facts]

def fn_part1 {F : FTy → Type} [FloatOps F] (main_v13 : IVec S_ 1) (main_v16 : IVec S20000x7x32 1) : IVec S_ 1 :=
  let main_c_5 : IVec S_ 1 := constantI S_ 1 1#1
  let main_v17 : IVec S_ 1 := (fun x v => Host.reduce IntOp.andi x v reducesTo_S20000x7x32_S_d0_1_2 h_S_) main_v16 main_c_5
  let main_v18 : IVec S_ 1 := andi main_v13 main_v17
  main_v18

def fn {F : FTy → Type} [FloatOps F] (main_arg0 : FVec F S20000x1x32 .f32) (main_arg1 : FVec F S20000x3x32 .f32) (main_arg2 : FVec F S20000x5x32 .f32) (main_arg3 : FVec F S20000x7x32 .f32) : IVec S_ 1 :=
  let main_v0 : FVec F S20000x1x32 .f32 := Host.absf main_arg0
  let main_cst : FVec F S_ .f32 := constant S_ .f32 0x7F800000#32
  let main_v1 : FVec F S20000x1x32 .f32 := broadcastInDim S20000x1x32 ![] bcast_S_S20000x1x32 main_cst
  let main_v2 : IVec S20000x1x32 1 := cmpf .olt main_v0 main_v1
  let main_c : IVec S_ 1 := constantI S_ 1 1#1
  let main_v3 : IVec S_ 1 := (fun x v => Host.reduce IntOp.andi x v reducesTo_S20000x1x32_S_d0_1_2 h_S_) main_v2 main_c
  let main_v4 : FVec F S20000x3x32 .f32 := Host.absf main_arg1
  let main_cst_0 : FVec F S_ .f32 := constant S_ .f32 0x7F800000#32
  let main_v5 : FVec F S20000x3x32 .f32 := broadcastInDim S20000x3x32 ![] bcast_S_S20000x3x32 main_cst_0
  let main_v6 : IVec S20000x3x32 1 := cmpf .olt main_v4 main_v5
  let main_c_1 : IVec S_ 1 := constantI S_ 1 1#1
  let main_v7 : IVec S_ 1 := (fun x v => Host.reduce IntOp.andi x v reducesTo_S20000x3x32_S_d0_1_2 h_S_) main_v6 main_c_1
  let main_v8 : IVec S_ 1 := andi main_v3 main_v7
  let main_v9 : FVec F S20000x5x32 .f32 := Host.absf main_arg2
  let main_cst_2 : FVec F S_ .f32 := constant S_ .f32 0x7F800000#32
  let main_v10 : FVec F S20000x5x32 .f32 := broadcastInDim S20000x5x32 ![] bcast_S_S20000x5x32 main_cst_2
  let main_v11 : IVec S20000x5x32 1 := cmpf .olt main_v9 main_v10
  let main_c_3 : IVec S_ 1 := constantI S_ 1 1#1
  let main_v12 : IVec S_ 1 := (fun x v => Host.reduce IntOp.andi x v reducesTo_S20000x5x32_S_d0_1_2 h_S_) main_v11 main_c_3
  let main_v13 : IVec S_ 1 := andi main_v8 main_v12
  let main_v14 : FVec F S20000x7x32 .f32 := Host.absf main_arg3
  let main_cst_4 : FVec F S_ .f32 := constant S_ .f32 0x7F800000#32
  let main_v15 : FVec F S20000x7x32 .f32 := broadcastInDim S20000x7x32 ![] bcast_S_S20000x7x32 main_cst_4
  let main_v16 : IVec S20000x7x32 1 := cmpf .olt main_v14 main_v15
  fn_part1 (F := F) main_v13 main_v16
-- ==== Kernel.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S32x20000 : Shape := ⟨2, ![32, 20000]⟩
abbrev S_ : Shape := ⟨0, ![]⟩
abbrev S20480x1x32 : Shape := ⟨3, ![20480, 1, 32]⟩
abbrev S1024x20480 : Shape := ⟨2, ![1024, 20480]⟩
abbrev S1024x1x32 : Shape := ⟨3, ![1024, 1, 32]⟩
abbrev S1024x1024 : Shape := ⟨2, ![1024, 1024]⟩
abbrev S1024x32x32 : Shape := ⟨3, ![1024, 32, 32]⟩
abbrev S32x32x1024 : Shape := ⟨3, ![32, 32, 1024]⟩
abbrev S1024x20000 : Shape := ⟨2, ![1024, 20000]⟩
abbrev S20480x3x32 : Shape := ⟨3, ![20480, 3, 32]⟩
abbrev S1024x3x32 : Shape := ⟨3, ![1024, 3, 32]⟩
abbrev S20480x5x32 : Shape := ⟨3, ![20480, 5, 32]⟩
abbrev S1024x5x32 : Shape := ⟨3, ![1024, 5, 32]⟩
abbrev S20480x7x32 : Shape := ⟨3, ![20480, 7, 32]⟩
abbrev S1024x7x32 : Shape := ⟨3, ![1024, 7, 32]⟩
abbrev S4128x20000 : Shape := ⟨2, ![4128, 20000]⟩

abbrev nBuf : Space → Nat
  | .hbm => 26
  | .vmem => 16
  | .smem => 0
  | _ => 0

abbrev bufTy : (tb : Table) → Fin (tcTables nBuf tb) → BufTy
  | .hbm, ⟨0, _⟩ => ⟨S20000x1x32, .f32⟩
  | .hbm, ⟨1, _⟩ => ⟨S20000x3x32, .f32⟩
  | .hbm, ⟨2, _⟩ => ⟨S20000x5x32, .f32⟩
  | .hbm, ⟨3, _⟩ => ⟨S20000x7x32, .f32⟩
  | .hbm, ⟨4, _⟩ => ⟨S32x20000, .f32⟩
  | .hbm, ⟨5, _⟩ => ⟨S_, .i32⟩
  | .hbm, ⟨6, _⟩ => ⟨S_, .f32⟩
  | .hbm, ⟨7, _⟩ => ⟨S20480x1x32, .f32⟩
  | .hbm, ⟨8, _⟩ => ⟨S1024x20480, .f32⟩
  | .hbm, ⟨9, _⟩ => ⟨S1024x20000, .f32⟩
  | .hbm, ⟨10, _⟩ => ⟨S_, .i32⟩
  | .hbm, ⟨11, _⟩ => ⟨S_, .f32⟩
  | .hbm, ⟨12, _⟩ => ⟨S20480x3x32, .f32⟩
  | .hbm, ⟨13, _⟩ => ⟨S1024x20480, .f32⟩
  | .hbm, ⟨14, _⟩ => ⟨S1024x20000, .f32⟩
  | .hbm, ⟨15, _⟩ => ⟨S_, .i32⟩
  | .hbm, ⟨16, _⟩ => ⟨S_, .f32⟩
  | .hbm, ⟨17, _⟩ => ⟨S20480x5x32, .f32⟩
  | .hbm, ⟨18, _⟩ => ⟨S1024x20480, .f32⟩
  | .hbm, ⟨19, _⟩ => ⟨S1024x20000, .f32⟩
  | .hbm, ⟨20, _⟩ => ⟨S_, .i32⟩
  | .hbm, ⟨21, _⟩ => ⟨S_, .f32⟩
  | .hbm, ⟨22, _⟩ => ⟨S20480x7x32, .f32⟩
  | .hbm, ⟨23, _⟩ => ⟨S1024x20480, .f32⟩
  | .hbm, ⟨24, _⟩ => ⟨S1024x20000, .f32⟩
  | .hbm, ⟨25, _⟩ => ⟨S4128x20000, .f32⟩
  | .local _ .vmem, ⟨0, _⟩ => ⟨S1024x1x32, .f32⟩
  | .local _ .vmem, ⟨1, _⟩ => ⟨S1024x1x32, .f32⟩
  | .local _ .vmem, ⟨2, _⟩ => ⟨S1024x1024, .f32⟩
  | .local _ .vmem, ⟨3, _⟩ => ⟨S1024x1024, .f32⟩
  | .local _ .vmem, ⟨4, _⟩ => ⟨S1024x3x32, .f32⟩
  | .local _ .vmem, ⟨5, _⟩ => ⟨S1024x3x32, .f32⟩
  | .local _ .vmem, ⟨6, _⟩ => ⟨S1024x1024, .f32⟩
  | .local _ .vmem, ⟨7, _⟩ => ⟨S1024x1024, .f32⟩
  | .local _ .vmem, ⟨8, _⟩ => ⟨S1024x5x32, .f32⟩
  | .local _ .vmem, ⟨9, _⟩ => ⟨S1024x5x32, .f32⟩
  | .local _ .vmem, ⟨10, _⟩ => ⟨S1024x1024, .f32⟩
  | .local _ .vmem, ⟨11, _⟩ => ⟨S1024x1024, .f32⟩
  | .local _ .vmem, ⟨12, _⟩ => ⟨S1024x7x32, .f32⟩
  | .local _ .vmem, ⟨13, _⟩ => ⟨S1024x7x32, .f32⟩
  | .local _ .vmem, ⟨14, _⟩ => ⟨S1024x1024, .f32⟩
  | .local _ .vmem, ⟨15, _⟩ => ⟨S1024x1024, .f32⟩
  | _, _ => ⟨S20000x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x3x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x5x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![20], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x7x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  shapeCasts_S20000x1x32_S32x20000 : S20000x1x32.ShapeCasts S32x20000
  pads_S20000x1x32_S20480x1x32_04800_000_000 : S20000x1x32.Pads (![0, 0, 0] : Fin 3 → Nat) ![480, 0, 0] ![0, 0, 0] S20480x1x32
  h_S_ : 0 < S_.numel
  inb_S1024x1x32_S1024x1x32_0_0_0 : ∀ a, (![0, 0, 0] : Fin 3 → Nat) a + S1024x1x32.size a ≤ S1024x1x32.size a
  h_S1024x1x32 : 0 < S1024x1x32.numel
  shapeCasts_S1024x1x32_S1024x1x32 : S1024x1x32.ShapeCasts S1024x1x32
  bitsLt_bf16_f32 : FTy.bits .bf16 < FTy.bits .f32
  transposes_S1024x32x32_p1_2_0_S32x32x1024 : S1024x32x32.Transposes [1, 2, 0] S32x32x1024
  shapeCasts_S32x32x1024_S1024x1024 : S32x32x1024.ShapeCasts S1024x1024
  inb_S1024x1024_S1024x1024_0_0 : ∀ a, (![0, 0] : Fin 2 → Nat) a + S1024x1024.size a ≤ S1024x1024.size a
  h_S1024x1024 : 0 < S1024x1024.numel
  slices_S1024x20480_S1024x20000_0_0 : S1024x20480.Slices ![0, 0] S1024x20000
  pads_S20000x3x32_S20480x3x32_04800_000_000 : S20000x3x32.Pads (![0, 0, 0] : Fin 3 → Nat) ![480, 0, 0] ![0, 0, 0] S20480x3x32
  inb_S1024x3x32_S1024x3x32_0_0_0 : ∀ a, (![0, 0, 0] : Fin 3 → Nat) a + S1024x3x32.size a ≤ S1024x3x32.size a
  h_S1024x3x32 : 0 < S1024x3x32.numel
  shapeCasts_S1024x3x32_S1024x3x32 : S1024x3x32.ShapeCasts S1024x3x32
  pads_S20000x5x32_S20480x5x32_04800_000_000 : S20000x5x32.Pads (![0, 0, 0] : Fin 3 → Nat) ![480, 0, 0] ![0, 0, 0] S20480x5x32
  inb_S1024x5x32_S1024x5x32_0_0_0 : ∀ a, (![0, 0, 0] : Fin 3 → Nat) a + S1024x5x32.size a ≤ S1024x5x32.size a
  h_S1024x5x32 : 0 < S1024x5x32.numel
  shapeCasts_S1024x5x32_S1024x5x32 : S1024x5x32.ShapeCasts S1024x5x32
  pads_S20000x7x32_S20480x7x32_04800_000_000 : S20000x7x32.Pads (![0, 0, 0] : Fin 3 → Nat) ![480, 0, 0] ![0, 0, 0] S20480x7x32
  inb_S1024x7x32_S1024x7x32_0_0_0 : ∀ a, (![0, 0, 0] : Fin 3 → Nat) a + S1024x7x32.size a ≤ S1024x7x32.size a
  h_S1024x7x32 : 0 < S1024x7x32.numel
  shapeCasts_S1024x7x32_S1024x7x32 : S1024x7x32.ShapeCasts S1024x7x32
  concatenates_S32x20000_S1024x20000_S1024x20000_S1024x20000_S1024x20000_S4128x20000_d0 : Shape.Concatenates [S32x20000, S1024x20000, S1024x20000, S1024x20000, S1024x20000] S4128x20000 0
  dot_S1024x1x32_S1024x1x32_S1024x32x32_1_1_2_2_0_0_wf : DotDims.WF S1024x1x32 S1024x1x32 S1024x32x32 [1] [1] [2] [2] [0] [0]
  dot_S1024x3x32_S1024x3x32_S1024x32x32_1_1_2_2_0_0_wf : DotDims.WF S1024x3x32 S1024x3x32 S1024x32x32 [1] [1] [2] [2] [0] [0]
  dot_S1024x5x32_S1024x5x32_S1024x32x32_1_1_2_2_0_0_wf : DotDims.WF S1024x5x32 S1024x5x32 S1024x32x32 [1] [1] [2] [2] [0] [0]
  dot_S1024x7x32_S1024x7x32_S1024x32x32_1_1_2_2_0_0_wf : DotDims.WF S1024x7x32 S1024x7x32 S1024x32x32 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x32.size a ≤ S20480x1x32.size a
  hwx0_0 : ∀ i : grid0.Coords, EltTy.bits .f32 = 32 ∨ (Rect.block (s := S20480x1x32) S1024x1x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x20480.size a
  hwx0_1 : ∀ i : grid0.Coords, EltTy.bits .f32 = 32 ∨ (Rect.block (s := S1024x20480) S1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3x32.size a ≤ S20480x3x32.size a
  hwx1_0 : ∀ i : grid1.Coords, EltTy.bits .f32 = 32 ∨ (Rect.block (s := S20480x3x32) S1024x3x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x20480.size a
  hwx1_1 : ∀ i : grid1.Coords, EltTy.bits .f32 = 32 ∨ (Rect.block (s := S1024x20480) S1024x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x5x32.size a ≤ S20480x5x32.size a
  hwx2_0 : ∀ i : grid2.Coords, EltTy.bits .f32 = 32 ∨ (Rect.block (s := S20480x5x32) S1024x5x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x20480.size a
  hwx2_1 : ∀ i : grid2.Coords, EltTy.bits .f32 = 32 ∨ (Rect.block (s := S1024x20480) S1024x1024.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x7x32.size a ≤ S20480x7x32.size a
  hwx3_0 : ∀ i : grid3.Coords, EltTy.bits .f32 = 32 ∨ (Rect.block (s := S20480x7x32) S1024x7x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x20480.size a
  hwx3_1 : ∀ i : grid3.Coords, EltTy.bits .f32 = 32 ∨ (Rect.block (s := S1024x20480) S1024x1024.size (cc3_transform_1 i) (hinb3_1 i)).WholeWords (EltTy.packing .f32)

variable [Facts₀]

def dot_S1024x1x32_S1024x1x32_S1024x32x32_1_1_2_2_0_0 : DotDims S1024x1x32 S1024x1x32 S1024x32x32 where
  lhsContracting := [1]
  rhsContracting := [1]
  lhsNonContracting := [2]
  rhsNonContracting := [2]
  lhsBatch := [0]
  rhsBatch := [0]
  wf := dot_S1024x1x32_S1024x1x32_S1024x32x32_1_1_2_2_0_0_wf
def dot_S1024x3x32_S1024x3x32_S1024x32x32_1_1_2_2_0_0 : DotDims S1024x3x32 S1024x3x32 S1024x32x32 where
  lhsContracting := [1]
  rhsContracting := [1]
  lhsNonContracting := [2]
  rhsNonContracting := [2]
  lhsBatch := [0]
  rhsBatch := [0]
  wf := dot_S1024x3x32_S1024x3x32_S1024x32x32_1_1_2_2_0_0_wf
def dot_S1024x5x32_S1024x5x32_S1024x32x32_1_1_2_2_0_0 : DotDims S1024x5x32 S1024x5x32 S1024x32x32 where
  lhsContracting := [1]
  rhsContracting := [1]
  lhsNonContracting := [2]
  rhsNonContracting := [2]
  lhsBatch := [0]
  rhsBatch := [0]
  wf := dot_S1024x5x32_S1024x5x32_S1024x32x32_1_1_2_2_0_0_wf
def dot_S1024x7x32_S1024x7x32_S1024x32x32_1_1_2_2_0_0 : DotDims S1024x7x32 S1024x7x32 S1024x32x32 where
  lhsContracting := [1]
  rhsContracting := [1]
  lhsNonContracting := [2]
  rhsNonContracting := [2]
  lhsBatch := [0]
  rhsBatch := [0]
  wf := dot_S1024x7x32_S1024x7x32_S1024x32x32_1_1_2_2_0_0_wf

abbrev win0_0 : Pipeline.Window sig grid0 :=
  Pipeline.Window.ofSpec (Memref.whole main_v1) S1024x1x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v4) S1024x3x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v7) S1024x5x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v10) S1024x7x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x1024.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S20000x1x32 : Shape := ⟨3, ![20000, 1, 32]⟩
abbrev S20000x3x32 : Shape := ⟨3, ![20000, 3, 32]⟩
abbrev S20000x5x32 : Shape := ⟨3, ![20000, 5, 32]⟩
abbrev S20000x7x32 : Shape := ⟨3, ![20000, 7, 32]⟩
abbrev S32x20000 : Shape := ⟨2, ![32, 20000]⟩
abbrev S20000x32x32 : Shape := ⟨3, ![20000, 32, 32]⟩
abbrev S32x32x20000 : Shape := ⟨3, ![32, 32, 20000]⟩
abbrev S1024x20000 : Shape := ⟨2, ![1024, 20000]⟩
abbrev S4128x20000 : Shape := ⟨2, ![4128, 20000]⟩

abbrev nBuf : Space → Nat
  | .hbm => 18
  | .vmem => 0
  | .smem => 0
  | _ => 0

abbrev bufTy : (tb : Table) → Fin (tcTables nBuf tb) → BufTy
  | .hbm, ⟨0, _⟩ => ⟨S20000x1x32, .f32⟩
  | .hbm, ⟨1, _⟩ => ⟨S20000x3x32, .f32⟩
  | .hbm, ⟨2, _⟩ => ⟨S20000x5x32, .f32⟩
  | .hbm, ⟨3, _⟩ => ⟨S20000x7x32, .f32⟩
  | .hbm, ⟨4, _⟩ => ⟨S32x20000, .f32⟩
  | .hbm, ⟨5, _⟩ => ⟨S20000x32x32, .f32⟩
  | .hbm, ⟨6, _⟩ => ⟨S32x32x20000, .f32⟩
  | .hbm, ⟨7, _⟩ => ⟨S1024x20000, .f32⟩
  | .hbm, ⟨8, _⟩ => ⟨S20000x32x32, .f32⟩
  | .hbm, ⟨9, _⟩ => ⟨S32x32x20000, .f32⟩
  | .hbm, ⟨10, _⟩ => ⟨S1024x20000, .f32⟩
  | .hbm, ⟨11, _⟩ => ⟨S20000x32x32, .f32⟩
  | .hbm, ⟨12, _⟩ => ⟨S32x32x20000, .f32⟩
  | .hbm, ⟨13, _⟩ => ⟨S1024x20000, .f32⟩
  | .hbm, ⟨14, _⟩ => ⟨S20000x32x32, .f32⟩
  | .hbm, ⟨15, _⟩ => ⟨S32x32x20000, .f32⟩
  | .hbm, ⟨16, _⟩ => ⟨S1024x20000, .f32⟩
  | .hbm, ⟨17, _⟩ => ⟨S4128x20000, .f32⟩
  | _, _ => ⟨S20000x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S20000x1x32_S32x20000 : S20000x1x32.ShapeCasts S32x20000
  transposes_S20000x32x32_S32x32x20000_2_1_0 : S20000x32x32.Transposes [2, 1, 0] S32x32x20000
  shapeCasts_S32x32x20000_S1024x20000 : S32x32x20000.ShapeCasts S1024x20000
  concatenates_S32x20000_S1024x20000_S1024x20000_S1024x20000_S1024x20000_S4128x20000_d0 : Shape.Concatenates [S32x20000, S1024x20000, S1024x20000, S1024x20000, S1024x20000] S4128x20000 0
  dot_S20000x1x32_S20000x1x32_S20000x32x32_1_1_2_2_0_0_wf : DotDims.WF S20000x1x32 S20000x1x32 S20000x32x32 [1] [1] [2] [2] [0] [0]
  dot_S20000x3x32_S20000x3x32_S20000x32x32_1_1_2_2_0_0_wf : DotDims.WF S20000x3x32 S20000x3x32 S20000x32x32 [1] [1] [2] [2] [0] [0]
  dot_S20000x5x32_S20000x5x32_S20000x32x32_1_1_2_2_0_0_wf : DotDims.WF S20000x5x32 S20000x5x32 S20000x32x32 [1] [1] [2] [2] [0] [0]
  dot_S20000x7x32_S20000x7x32_S20000x32x32_1_1_2_2_0_0_wf : DotDims.WF S20000x7x32 S20000x7x32 S20000x32x32 [1] [1] [2] [2] [0] [0]

variable [Facts₀]

def dot_S20000x1x32_S20000x1x32_S20000x32x32_1_1_2_2_0_0 : DotDims S20000x1x32 S20000x1x32 S20000x32x32 where
  lhsContracting := [1]
  rhsContracting := [1]
  lhsNonContracting := [2]
  rhsNonContracting := [2]
  lhsBatch := [0]
  rhsBatch := [0]
  wf := dot_S20000x1x32_S20000x1x32_S20000x32x32_1_1_2_2_0_0_wf
def dot_S20000x3x32_S20000x3x32_S20000x32x32_1_1_2_2_0_0 : DotDims S20000x3x32 S20000x3x32 S20000x32x32 where
  lhsContracting := [1]
  rhsContracting := [1]
  lhsNonContracting := [2]
  rhsNonContracting := [2]
  lhsBatch := [0]
  rhsBatch := [0]
  wf := dot_S20000x3x32_S20000x3x32_S20000x32x32_1_1_2_2_0_0_wf
def dot_S20000x5x32_S20000x5x32_S20000x32x32_1_1_2_2_0_0 : DotDims S20000x5x32 S20000x5x32 S20000x32x32 where
  lhsContracting := [1]
  rhsContracting := [1]
  lhsNonContracting := [2]
  rhsNonContracting := [2]
  lhsBatch := [0]
  rhsBatch := [0]
  wf := dot_S20000x5x32_S20000x5x32_S20000x32x32_1_1_2_2_0_0_wf
def dot_S20000x7x32_S20000x7x32_S20000x32x32_1_1_2_2_0_0 : DotDims S20000x7x32 S20000x7x32 S20000x32x32 where
  lhsContracting := [1]
  rhsContracting := [1]
  lhsNonContracting := [2]
  rhsNonContracting := [2]
  lhsBatch := [0]
  rhsBatch := [0]
  wf := dot_S20000x7x32_S20000x7x32_S20000x32x32_1_1_2_2_0_0_wf

class Facts : Prop extends Facts₀ where

variable [Facts]
-- ==== Proof.Region3.lean ====
/-
  Region 3 of the program: the Gram kernel over the angular axis of extent 7 (the call whose input is the
  padded fourth argument, 20480 x 7 x 32, and whose output is the 1024 x 20480 array of channel-pair products).

  One grid point t handles the 1024 atoms t*1024 .. t*1024+1023: it reads the (1024, 7, 32) block of the padded
  input and stores, whole, the (1024, 1024) block whose entry (c*32+d, a) is the sum over the angular index of
  x[a, ., c] * x[a, ., d].  The body keeps nothing between points, so what it leaves in the output's staging
  buffer is a function of the input block alone: `out3_1`.  This module states that function, runs the body
  against it, and packages the result as the pipeline's proof data at ANY contents `V` of the core's buffers at
  the region's entry, at any float instance.
-/
import proofs.«155527_j19035295055889_1_alg».proof.Proof.Gen.KernelIdeal.Launch
import proofs.«155527_j19035295055889_1_alg».proof.Proof.Gen.KernelIdeal.Skeleton
import proofs.«155527_j19035295055889_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input's current staging buffer holds its block at every point, for any proof data whose array is `V`'s
    and whose body leaves the block in place: the window is fetched whole and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output's buffer -/

/-- The whole (1024, 1024) staging buffer: the body's one store covers it. -/
abbrev r3_out : Rect S1024x1024 := Rect.unit (s := S1024x1024) ![0, 0] S1024x1024.size inb_S1024x1024_S1024x1024_0_0
/-- The whole (1024, 7, 32) input block: the body's one load of it. -/
abbrev r3_in : Rect S1024x7x32 := Rect.unit (s := S1024x7x32) ![0, 0, 0] S1024x7x32.size inb_S1024x7x32_S1024x7x32_0_0_0

/-- The output's staging buffer after the body, from the input block: the one store's value (the Gram products
    of the block, transposed to put the atoms last and flattened to channel pairs by atoms) over the whole buffer. -/
def out3_1 (x0 : Vec F S1024x7x32 .f32) : Vec F S1024x1024 .f32 :=
  View.canon [⟨r3_out, k3_pay1 (View.ld x0 r3_in)⟩]

/-- The one store covers the buffer. -/
theorem cover3_1 (p0 : Vec F S1024x1024 .f32) (y : S1024x1024.Idx) :
    ∃ pc ∈ ([⟨r3_out, p0⟩] : List (View.Piece (Elt F) S1024x1024 .f32)), y ∈ pc.1.set :=
  View.cover_of_tiled [⟨r3_out, p0⟩] S1024x1024.size (by rfl) y

/-! ## The body's triple -/

set_option maxHeartbeats 1000000 in
/-- The body on whole staging memrefs, the input's at contents `x0` and the output's at anything, runs to the
    continuation holding the input's as it was and the output's at `out3_1 x0`. (The body also loads the
    output's buffer before storing; the loaded value is not used.) -/
theorem sound_kernel3 (c : Dev nD) (E : Set ℕ) (i : grid3.Coords) (arg1 : Memref sig .tc .vmem S1024x7x32 .f32) (harg1 : arg1.IsWhole) (arg2 : Memref sig .tc .vmem S1024x1024 .f32) (harg2 : arg2.IsWhole)
    (x0 : Vec F S1024x7x32 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__gram_kernel i arg1 harg1 arg2 harg2) K := by
  simp only [cc3__gram_kernel_eq_skeleton]; unfold cc3__gram_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The pipeline's proof data -/

/-- The proof data of this pipeline on core `c`: the arrays as the region finds them; after the body at point
    `t` the input's buffer at its block and the output's at `out3_1` of that block; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gram

end
-- ==== Proof.Fold.lean ====
/-
  The contents of the core's buffers at every boundary between two items of the program, from the launch to the
  return.  The program is thirteen items: two stretches of host operations (a reshape and a constant; the padding
  of an argument to 20480 atoms), a Gram kernel, and so on four times, then the last slice and the concatenation.
  A host stretch changes the buffers its operations write; a kernel region leaves its input array as it found it
  and its output array at what the pipeline's twenty write-backs leave, every other buffer untouched.  No item
  writes an argument, so each argument array reaches the end holding its launch contents.
-/
import proofs.«155527_j19035295055889_1_alg».proof.Proof.Region0
import proofs.«155527_j19035295055889_1_alg».proof.Proof.Region1
import proofs.«155527_j19035295055889_1_alg».proof.Proof.Region2
import proofs.«155527_j19035295055889_1_alg».proof.Proof.Region3
import proofs.«155527_j19035295055889_1_alg».proof.Proof.Gen.KernelIdeal.Regions

set_option maxRecDepth 16384

noncomputable section

namespace Cert.KernelIdeal.Gram

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## The fold -/

/-- Core `c`'s buffers at launch. -/
abbrev W0 : Dev nD → Valuation τ sig (Elt F) := fun c b => m (c, b)
/-- After the first reshape and constant. -/
abbrev W1 : Dev nD → Valuation τ sig (Elt F) := fun c => StableHlo.after hostOps0 (W0 m c)
/-- After the first argument's padding: the first kernel's entry. -/
abbrev W2 : Dev nD → Valuation τ sig (Elt F) := fun c => StableHlo.after hostOps0_1 (W1 m c)
/-- The first kernel's entry contents, read at the TensorCore's references. -/
abbrev U2 : (c : Dev nD) → (b : Ref sig .tc) → Buf (Elt F) ((c : Thread nD τ).loc b) := fun c b => W2 m c b
/-- At the first kernel's exit: its arrays at what the pipeline leaves, every other buffer as entered. -/
def W3 (c : Dev nD) : Valuation τ sig (Elt F) :=
  Pipeline.withArrays spec0 c (W2 m c) fun w => (dat0 (U2 m) c).arrAt w cfg0.N
theorem W3_arr (c : Dev nD) (w : Fin cfg0.W) :
    W3 m c (Proc.devRef .tc (Pipeline.arrRef spec0 w)) = (dat0 (U2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The same read at the TensorCore's references. -/
abbrev U3 : (c : Dev nD) → (b : Ref sig .tc) → Buf (Elt F) ((c : Thread nD τ).loc b) := fun c b => W3 m c b
theorem hF0 (c : Dev nD) (w : Fin cfg0.W) : (dat0 (U2 m) c).arrAt w cfg0.N = U3 m c (Pipeline.arrRef spec0 w) :=
  (W3_arr m c w).symm
theorem hrest0 (c : Dev nD) : ∀ b, b ∉ Finset.univ.image (Pipeline.arrRef spec0) → U3 m c b = U2 m c b :=
  fun b hb => W3_of_ne m c b fun w e => hb (Finset.mem_image.mpr ⟨w, Finset.mem_univ _, e⟩)
/-- After the slice of the first kernel's output and a constant. -/
abbrev W4 : Dev nD → Valuation τ sig (Elt F) := fun c => StableHlo.after hostOps1 (W3 m c)
/-- After the second argument's padding: the second kernel's entry. -/
abbrev W5 : Dev nD → Valuation τ sig (Elt F) := fun c => StableHlo.after hostOps1_1 (W4 m c)
/-- The second kernel's entry contents, read at the TensorCore's references. -/
abbrev U5 : (c : Dev nD) → (b : Ref sig .tc) → Buf (Elt F) ((c : Thread nD τ).loc b) := fun c b => W5 m c b
/-- At the second kernel's exit: its arrays at what the pipeline leaves, every other buffer as entered. -/
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev U6 : (c : Dev nD) → (b : Ref sig .tc) → Buf (Elt F) ((c : Thread nD τ).loc b) := fun c b => W6 m c b
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)
/-- After the slice of the second kernel's output and a constant. -/
abbrev W7 : Dev nD → Valuation τ sig (Elt F) := fun c => StableHlo.after hostOps2 (W6 m c)
/-- After the third argument's padding: the third kernel's entry. -/
abbrev W8 : Dev nD → Valuation τ sig (Elt F) := fun c => StableHlo.after hostOps2_1 (W7 m c)
/-- The third kernel's entry contents, read at the TensorCore's references. -/
abbrev U8 : (c : Dev nD) → (b : Ref sig .tc) → Buf (Elt F) ((c : Thread nD τ).loc b) := fun c b => W8 m c b
/-- At the third kernel's exit: its arrays at what the pipeline leaves, every other buffer as entered. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The same read at the TensorCore's references. -/
abbrev U9 : (c : Dev nD) → (b : Ref sig .tc) → Buf (Elt F) ((c : Thread nD τ).loc b) := fun c b => W9 m c b
theorem hF2 (c : Dev nD) (w : Fin cfg2.W) : (dat2 (U8 m) c).arrAt w cfg2.N = U9 m c (Pipeline.arrRef spec2 w) :=
  (W9_arr m c w).symm
theorem hrest2 (c : Dev nD) : ∀ b, b ∉ Finset.univ.image (Pipeline.arrRef spec2) → U9 m c b = U8 m c b :=
  fun b hb => W9_of_ne m c b fun w e => hb (Finset.mem_image.mpr ⟨w, Finset.mem_univ _, e⟩)
/-- After the slice of the third kernel's output and a constant. -/
abbrev W10 : Dev nD → Valuation τ sig (Elt F) := fun c => StableHlo.after hostOps3 (W9 m c)
/-- After the fourth argument's padding: the fourth kernel's entry. -/
abbrev W11 : Dev nD → Valuation τ sig (Elt F) := fun c => StableHlo.after hostOps3_1 (W10 m c)
/-- The fourth kernel's entry contents, read at the TensorCore's references. -/
abbrev U11 : (c : Dev nD) → (b : Ref sig .tc) → Buf (Elt F) ((c : Thread nD τ).loc b) := fun c b => W11 m c b
/-- At the fourth kernel's exit: its arrays at what the pipeline leaves, every other buffer as entered. -/
def W12 (c : Dev nD) : Valuation τ sig (Elt F) :=
  Pipeline.withArrays spec3 c (W11 m c) fun w => (dat3 (U11 m) c).arrAt w cfg3.N
theorem W12_arr (c : Dev nD) (w : Fin cfg3.W) :
    W12 m c (Proc.devRef .tc (Pipeline.arrRef spec3 w)) = (dat3 (U11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
/-- The same read at the TensorCore's references. -/
abbrev U12 : (c : Dev nD) → (b : Ref sig .tc) → Buf (Elt F) ((c : Thread nD τ).loc b) := fun c b => W12 m c b
theorem hF3 (c : Dev nD) (w : Fin cfg3.W) : (dat3 (U11 m) c).arrAt w cfg3.N = U12 m c (Pipeline.arrRef spec3 w) :=
  (W12_arr m c w).symm
theorem hrest3 (c : Dev nD) : ∀ b, b ∉ Finset.univ.image (Pipeline.arrRef spec3) → U12 m c b = U11 m c b :=
  fun b hb => W12_of_ne m c b fun w e => hb (Finset.mem_image.mpr ⟨w, Finset.mem_univ _, e⟩)
/-- After the last slice and the concatenation: the contents at the return. -/
abbrev W13 : Dev nD → Valuation τ sig (Elt F) := fun c => StableHlo.after hostOps4 (W12 m c)

/-! ## What each item leaves unchanged -/

theorem W1_of (c : Dev nD) (r : Ref sig .tc) (h : r ∉ (hostOps0_W : List (Ref sig .tc))) : W1 m c r = W0 m c r :=
  StableHlo.after_of_writes_sub hostOps0 _ hostOps0_writes h
theorem W2_of (c : Dev nD) (r : Ref sig .tc) (h : r ∉ (hostOps0_1_W : List (Ref sig .tc))) : W2 m c r = W1 m c r :=
  StableHlo.after_of_writes_sub hostOps0_1 _ hostOps0_1_writes h
theorem W4_of (c : Dev nD) (r : Ref sig .tc) (h : r ∉ (hostOps1_W : List (Ref sig .tc))) : W4 m c r = W3 m c r :=
  StableHlo.after_of_writes_sub hostOps1 _ hostOps1_writes h
theorem W5_of (c : Dev nD) (r : Ref sig .tc) (h : r ∉ (hostOps1_1_W : List (Ref sig .tc))) : W5 m c r = W4 m c r :=
  StableHlo.after_of_writes_sub hostOps1_1 _ hostOps1_1_writes h
theorem W7_of (c : Dev nD) (r : Ref sig .tc) (h : r ∉ (hostOps2_W : List (Ref sig .tc))) : W7 m c r = W6 m c r :=
  StableHlo.after_of_writes_sub hostOps2 _ hostOps2_writes h
theorem W8_of (c : Dev nD) (r : Ref sig .tc) (h : r ∉ (hostOps2_1_W : List (Ref sig .tc))) : W8 m c r = W7 m c r :=
  StableHlo.after_of_writes_sub hostOps2_1 _ hostOps2_1_writes h
theorem W10_of (c : Dev nD) (r : Ref sig .tc) (h : r ∉ (hostOps3_W : List (Ref sig .tc))) : W10 m c r = W9 m c r :=
  StableHlo.after_of_writes_sub hostOps3 _ hostOps3_writes h
theorem W11_of (c : Dev nD) (r : Ref sig .tc) (h : r ∉ (hostOps3_1_W : List (Ref sig .tc))) : W11 m c r = W10 m c r :=
  StableHlo.after_of_writes_sub hostOps3_1 _ hostOps3_1_writes h
theorem W13_of (c : Dev nD) (r : Ref sig .tc) (h : r ∉ (hostOps4_W : List (Ref sig .tc))) : W13 m c r = W12 m c r :=
  StableHlo.after_of_writes_sub hostOps4 _ hostOps4_writes h

/-! ## The arguments end as launched -/

/-- No host stretch writes argument 0 and no kernel has it among its arrays. -/
theorem W13_main_arg0 (c : Dev nD) : W13 m c (Proc.devRef .tc main_arg0) = m ((c : Thread nD τ).loc main_arg0) :=
  (W13_of m c main_arg0 (by decide)).trans <| (W12_of_ne m c main_arg0 (by decide)).trans <| (W11_of m c main_arg0 (by decide)).trans <| (W10_of m c main_arg0 (by decide)).trans <| (W9_of_ne m c main_arg0 (by decide)).trans <| (W8_of m c main_arg0 (by decide)).trans <| (W7_of m c main_arg0 (by decide)).trans <| (W6_of_ne m c main_arg0 (by decide)).trans <| (W5_of m c main_arg0 (by decide)).trans <| (W4_of m c main_arg0 (by decide)).trans <| (W3_of_ne m c main_arg0 (by decide)).trans <| (W2_of m c main_arg0 (by decide)).trans <| (W1_of m c main_arg0 (by decide)).trans <| rfl
/-- No host stretch writes argument 1 and no kernel has it among its arrays. -/
theorem W13_main_arg1 (c : Dev nD) : W13 m c (Proc.devRef .tc main_arg1) = m ((c : Thread nD τ).loc main_arg1) :=
  (W13_of m c main_arg1 (by decide)).trans <| (W12_of_ne m c main_arg1 (by decide)).trans <| (W11_of m c main_arg1 (by decide)).trans <| (W10_of m c main_arg1 (by decide)).trans <| (W9_of_ne m c main_arg1 (by decide)).trans <| (W8_of m c main_arg1 (by decide)).trans <| (W7_of m c main_arg1 (by decide)).trans <| (W6_of_ne m c main_arg1 (by decide)).trans <| (W5_of m c main_arg1 (by decide)).trans <| (W4_of m c main_arg1 (by decide)).trans <| (W3_of_ne m c main_arg1 (by decide)).trans <| (W2_of m c main_arg1 (by decide)).trans <| (W1_of m c main_arg1 (by decide)).trans <| rfl
/-- No host stretch writes argument 2 and no kernel has it among its arrays. -/
theorem W13_main_arg2 (c : Dev nD) : W13 m c (Proc.devRef .tc main_arg2) = m ((c : Thread nD τ).loc main_arg2) :=
  (W13_of m c main_arg2 (by decide)).trans <| (W12_of_ne m c main_arg2 (by decide)).trans <| (W11_of m c main_arg2 (by decide)).trans <| (W10_of m c main_arg2 (by decide)).trans <| (W9_of_ne m c main_arg2 (by decide)).trans <| (W8_of m c main_arg2 (by decide)).trans <| (W7_of m c main_arg2 (by decide)).trans <| (W6_of_ne m c main_arg2 (by decide)).trans <| (W5_of m c main_arg2 (by decide)).trans <| (W4_of m c main_arg2 (by decide)).trans <| (W3_of_ne m c main_arg2 (by decide)).trans <| (W2_of m c main_arg2 (by decide)).trans <| (W1_of m c main_arg2 (by decide)).trans <| rfl
/-- No host stretch writes argument 3 and no kernel has it among its arrays. -/
theorem W13_main_arg3 (c : Dev nD) : W13 m c (Proc.devRef .tc main_arg3) = m ((c : Thread nD τ).loc main_arg3) :=
  (W13_of m c main_arg3 (by decide)).trans <| (W12_of_ne m c main_arg3 (by decide)).trans <| (W11_of m c main_arg3 (by decide)).trans <| (W10_of m c main_arg3 (by decide)).trans <| (W9_of_ne m c main_arg3 (by decide)).trans <| (W8_of m c main_arg3 (by decide)).trans <| (W7_of m c main_arg3 (by decide)).trans <| (W6_of_ne m c main_arg3 (by decide)).trans <| (W5_of m c main_arg3 (by decide)).trans <| (W4_of m c main_arg3 (by decide)).trans <| (W3_of_ne m c main_arg3 (by decide)).trans <| (W2_of m c main_arg3 (by decide)).trans <| (W1_of m c main_arg3 (by decide)).trans <| rfl

end Cert.KernelIdeal.Gram

end
-- ==== Proof.Run.lean ====
/-
  The program's run: its thirteen items as the segments of one launch, over the boundary contents of the fold.
  A host stretch takes every unscoped buffer from one boundary's contents to the next; a kernel region splits
  its two arrays out of the unscoped buffers at entry, runs its pipeline on the region's proof data, and puts
  them back at exit, the output array at what the write-backs leave.  Beside the buffers rides the core's
  generator register (the kernels' invariant takes it in and hands it back) and the core's dues, which are none.
  The conclusion: every weakly fair execution terminates without a fault, and the final memory holds every
  unscoped buffer at the last boundary's contents.
-/
import proofs.«155527_j19035295055889_1_alg».proof.Proof.Fold

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev noTab : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) noTab p) c
  | ⟨0, _⟩ => fun c => dat0 (U2 m) c
  | ⟨1, _⟩ => fun c => dat1 (U5 m) c
  | ⟨2, _⟩ => fun c => dat2 (U8 m) c
  | ⟨3, _⟩ => fun c => dat3 (U11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rider (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rider

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- The first kernel over the thread state: entered from every unscoped buffer at `W2`, left at `W3`. Its arrays
    are split out of the unscoped buffers and put back at the exit contents; the generator register goes into the
    kernel's invariant and comes out; nothing is owed; the kernel has no semaphore of its own. -/
def reg0 : Pipeline.RegionSeg (pcfgs (F := F)) noTab (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U2 m) c).loose
  hwaits := Pipeline.hwaits_of_owed_zero _ _ _ _ L lv 0 fun _ _ => rfl
  pre c := iprop(StableHlo.held (c : Thread nD τ) (Pipeline.ucRefs τ sig) (W2 m c) ∗ Rider c)
  post c := iprop(StableHlo.held (c : Thread nD τ) (Pipeline.ucRefs τ sig) (W3 m c) ∗ Rider c)
  X c := iprop(∃ r, prngReg c r)
  Y c := iprop(∃ r, prngReg c r)
  Z c := Pipeline.unscopedRest (Ix := Unit) (Name := ℕ) (U := UR sig nD τ) (Lvl := ℕ) spec0 c (U2 m c)
  hentry c := by
    rw [Pipeline.ownSems0_none]
    have hsplit := Pipeline.arrays_of_unscopedBufs (p := 0) (pcfgs (F := F)) noTab (pdats m) launch0.win launch0.arr_whole c
      ((pdats m 0 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTab (Ix := Unit) (Name := ℕ) (U := UR sig nD τ) (Lvl := ℕ)
      launch0.win launch0.arr_whole c (pdats m) ((pdats m 0 c).share_full fun _ => rfl)
      (U2 m c) (U3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every unscoped buffer at `W5`, left at `W6`. Its arrays
    are split out of the unscoped buffers and put back at the exit contents; the generator register goes into the
    kernel's invariant and comes out; nothing is owed; the kernel has no semaphore of its own. -/
def reg1 : Pipeline.RegionSeg (pcfgs (F := F)) noTab (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ Rider c)
  post c := iprop(StableHlo.held (c : Thread nD τ) (Pipeline.ucRefs τ sig) (W6 m c) ∗ Rider c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) noTab (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTab (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third kernel over the thread state: entered from every unscoped buffer at `W8`, left at `W9`. Its arrays
    are split out of the unscoped buffers and put back at the exit contents; the generator register goes into the
    kernel's invariant and comes out; nothing is owed; the kernel has no semaphore of its own. -/
def reg2 : Pipeline.RegionSeg (pcfgs (F := F)) noTab (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ L lv 2 fun _ _ => rfl
  pre c := iprop(StableHlo.held (c : Thread nD τ) (Pipeline.ucRefs τ sig) (W8 m c) ∗ Rider c)
  post c := iprop(StableHlo.held (c : Thread nD τ) (Pipeline.ucRefs τ sig) (W9 m c) ∗ Rider c)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := 2) (pcfgs (F := F)) noTab (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTab (Ix := Unit) (Name := ℕ) (U := UR sig nD τ) (Lvl := ℕ)
      launch2.win launch2.arr_whole c (pdats m) ((pdats m 2 c).share_full fun _ => rfl)
      (U8 m c) (U9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth kernel over the thread state: entered from every unscoped buffer at `W11`, left at `W12`. Its arrays
    are split out of the unscoped buffers and put back at the exit contents; the generator register goes into the
    kernel's invariant and comes out; nothing is owed; the kernel has no semaphore of its own. -/
def reg3 : Pipeline.RegionSeg (pcfgs (F := F)) noTab (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U11 m) c).loose
  hwaits := Pipeline.hwaits_of_owed_zero _ _ _ _ L lv 3 fun _ _ => rfl
  pre c := iprop(StableHlo.held (c : Thread nD τ) (Pipeline.ucRefs τ sig) (W11 m c) ∗ Rider c)
  post c := iprop(StableHlo.held (c : Thread nD τ) (Pipeline.ucRefs τ sig) (W12 m c) ∗ Rider c)
  X c := iprop(∃ r, prngReg c r)
  Y c := iprop(∃ r, prngReg c r)
  Z c := Pipeline.unscopedRest (Ix := Unit) (Name := ℕ) (U := UR sig nD τ) (Lvl := ℕ) spec3 c (U11 m c)
  hentry c := by
    rw [Pipeline.ownSems0_none]
    have hsplit := Pipeline.arrays_of_unscopedBufs (p := 3) (pcfgs (F := F)) noTab (pdats m) launch3.win launch3.arr_whole c
      ((pdats m 3 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTab (Ix := Unit) (Name := ℕ) (U := UR sig nD τ) (Lvl := ℕ)
      launch3.win launch3.arr_whole c (pdats m) ((pdats m 3 c).share_full fun _ => rfl)
      (U11 m c) (U12 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The thirteen segments in order. -/
abbrev segList : List (Pipeline.Seg (pcfgs (F := F)) noTab (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (W3 m)),
    .host (hseg hostOps1_1 hostOps1_1_sub hostOps1_1_fresh (W4 m)),
    .region (reg1 m),
    .host (hseg hostOps2 hostOps2_sub hostOps2_fresh (W6 m)),
    .host (hseg hostOps2_1 hostOps2_1_sub hostOps2_1_fresh (W7 m)),
    .region (reg2 m),
    .host (hseg hostOps3 hostOps3_sub hostOps3_fresh (W9 m)),
    .host (hseg hostOps3_1 hostOps3_1_sub hostOps3_1_fresh (W10 m)),
    .region (reg3 m),
    .host (hseg hostOps4 hostOps4_sub hostOps4_fresh (W12 m)) ]

set_option backward.isDefEq.respectTransparency.types false in
/-- THE RUN, at any float instance: from any memory with zero counters every weakly fair execution of the program
    terminates, nothing faulting, and the final memory holds every unscoped buffer of every core at the last
    boundary's contents `W13`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) noTab (pdats m) () cellOf_inj emb₁ defs₀ 𝒱₀ L lv m ρ main (segList m)
    (fun c Q => by
      rewrite [main_chain c, Seg.run_eq_chain,
        show (segList m).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rider c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m c) ∗ Rider c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.KernelIdeal.Gram

end
-- ==== Proof.FoldValue.lean ====
/-
  The boundary contents read at the buffers the result is made of.  The result is the concatenation, along the
  rows, of the reshaped first argument and of the four kernels' outputs with the 480 padding columns sliced off;
  each kernel's output array is what its pipeline's write-backs leave, and its input array is the argument padded
  by 480 atoms of the constant zero converted to a float.  Nothing here depends on the float instance.
-/
import proofs.«155527_j19035295055889_1_alg».proof.Proof.Fold
import Idealize.ShloMosaic.Lib.StableHlo.Run

set_option maxRecDepth 16384

noncomputable section

namespace Cert.KernelIdeal.Gram

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

/-- The value every padding uses: the integer constant zero converted to a float. -/
abbrev padValue : FVec F S_ .f32 := sitofp .f32 (constantI S_ 32 0#32)

/-! ## The result, from the last kernel's exit contents -/

theorem W13_main_v13 (c : Dev nD) : W13 m c (Proc.devRef .tc main_v13) = concatenate S4128x20000 0
    [⟨S32x20000, W12 m c (Proc.devRef .tc main_v0)⟩, ⟨S1024x20000, W12 m c (Proc.devRef .tc main_v3)⟩,
     ⟨S1024x20000, W12 m c (Proc.devRef .tc main_v6)⟩, ⟨S1024x20000, W12 m c (Proc.devRef .tc main_v9)⟩,
     ⟨S1024x20000, extractStridedSlice S1024x20000 ![0, 0] (W12 m c (Proc.devRef .tc main_v11)) slices_S1024x20480_S1024x20000_0_0⟩]
    concatenates_S32x20000_S1024x20000_S1024x20000_S1024x20000_S1024x20000_S4128x20000_d0 := by
  show StableHlo.after hostOps4 _ (Proc.devRef .tc main_v13) = _
  after_results <;> rfl

/-! ## Each piece, walked back to the item that wrote it -/

/-- The reshaped first argument is written by the first item and never again. -/
theorem W12_main_v0 (c : Dev nD) : W12 m c (Proc.devRef .tc main_v0)
    = shapeCast S32x20000 (m ((c : Thread nD τ).loc main_arg0)) shapeCasts_S20000x1x32_S32x20000 := by
  refine (W12_of_ne m c main_v0 (by decide)).trans <| (W11_of m c main_v0 (by decide)).trans <| (W10_of m c main_v0 (by decide)).trans <|
    (W9_of_ne m c main_v0 (by decide)).trans <| (W8_of m c main_v0 (by decide)).trans <| (W7_of m c main_v0 (by decide)).trans <|
    (W6_of_ne m c main_v0 (by decide)).trans <| (W5_of m c main_v0 (by decide)).trans <| (W4_of m c main_v0 (by decide)).trans <|
    (W3_of_ne m c main_v0 (by decide)).trans <| (W2_of m c main_v0 (by decide)).trans ?_
  show StableHlo.after hostOps0 _ (Proc.devRef .tc main_v0) = _
  after_results <;> rfl
/-- The first kernel's output with its padding columns sliced off: written right after that kernel, never again. -/
theorem W12_main_v3 (c : Dev nD) : W12 m c (Proc.devRef .tc main_v3)
    = extractStridedSlice S1024x20000 ![0, 0] ((dat0 (U2 m) c).arrAt 1 cfg0.N) slices_S1024x20480_S1024x20000_0_0 := by
  refine (W12_of_ne m c main_v3 (by decide)).trans <| (W11_of m c main_v3 (by decide)).trans <| (W10_of m c main_v3 (by decide)).trans <| (W9_of_ne m c main_v3 (by decide)).trans <| (W8_of m c main_v3 (by decide)).trans <| (W7_of m c main_v3 (by decide)).trans <| (W6_of_ne m c main_v3 (by decide)).trans <| (W5_of m c main_v3 (by decide)).trans <| ?_
  rw [← W3_arr m c 1]
  show StableHlo.after hostOps1 _ (Proc.devRef .tc main_v3) = _
  after_results <;> rfl
/-- The second kernel's output with its padding columns sliced off: written right after that kernel, never again. -/
theorem W12_main_v6 (c : Dev nD) : W12 m c (Proc.devRef .tc main_v6)
    = extractStridedSlice S1024x20000 ![0, 0] ((dat1 (U5 m) c).arrAt 1 cfg1.N) slices_S1024x20480_S1024x20000_0_0 := by
  refine (W12_of_ne m c main_v6 (by decide)).trans <| (W11_of m c main_v6 (by decide)).trans <| (W10_of m c main_v6 (by decide)).trans <| (W9_of_ne m c main_v6 (by decide)).trans <| (W8_of m c main_v6 (by decide)).trans <| ?_
  rw [← W6_arr m c 1]
  show StableHlo.after hostOps2 _ (Proc.devRef .tc main_v6) = _
  after_results <;> rfl
/-- The third kernel's output with its padding columns sliced off: written right after that kernel, never again. -/
theorem W12_main_v9 (c : Dev nD) : W12 m c (Proc.devRef .tc main_v9)
    = extractStridedSlice S1024x20000 ![0, 0] ((dat2 (U8 m) c).arrAt 1 cfg2.N) slices_S1024x20480_S1024x20000_0_0 := by
  refine (W12_of_ne m c main_v9 (by decide)).trans <| (W11_of m c main_v9 (by decide)).trans <| ?_
  rw [← W9_arr m c 1]
  show StableHlo.after hostOps3 _ (Proc.devRef .tc main_v9) = _
  after_results <;> rfl
/-- The fourth kernel's output array at its exit. -/
theorem W12_main_v11 (c : Dev nD) : W12 m c (Proc.devRef .tc main_v11) = (dat3 (U11 m) c).arrAt 1 cfg3.N :=
  W12_arr m c 1

/-! ## The kernels' input arrays: the padded arguments -/

/-- Argument 0 reaches the first padding as launched. -/
theorem W0_main_arg0 (c : Dev nD) : W0 m c (Proc.devRef .tc main_arg0) = m ((c : Thread nD τ).loc main_arg0) :=
  rfl
/-- The first kernel's input array at its entry is argument 0 padded by 480 atoms. -/
theorem U2_main_v1 (c : Dev nD) : U2 m c main_v1
    = pad S20480x1x32 ![0, 0, 0] ![480, 0, 0] ![0, 0, 0] (m ((c : Thread nD τ).loc main_arg0)) (padValue (F := F))
        pads_S20000x1x32_S20480x1x32_04800_000_000 h_S_ := by
  rw [← W0_main_arg0 m c]
  show StableHlo.after hostOps0_1 _ (Proc.devRef .tc main_v1) = _
  after_results <;> rfl
/-- Argument 1 reaches the second padding as launched. -/
theorem W3_main_arg1 (c : Dev nD) : W3 m c (Proc.devRef .tc main_arg1) = m ((c : Thread nD τ).loc main_arg1) :=
  (W3_of_ne m c main_arg1 (by decide)).trans <| (W2_of m c main_arg1 (by decide)).trans <| (W1_of m c main_arg1 (by decide)).trans <| rfl
/-- The second kernel's input array at its entry is argument 1 padded by 480 atoms. -/
theorem U5_main_v4 (c : Dev nD) : U5 m c main_v4
    = pad S20480x3x32 ![0, 0, 0] ![480, 0, 0] ![0, 0, 0] (m ((c : Thread nD τ).loc main_arg1)) (padValue (F := F))
        pads_S20000x3x32_S20480x3x32_04800_000_000 h_S_ := by
  rw [← W3_main_arg1 m c]
  show StableHlo.after hostOps1_1 _ (Proc.devRef .tc main_v4) = _
  after_results <;> rfl
/-- Argument 2 reaches the third padding as launched. -/
theorem W6_main_arg2 (c : Dev nD) : W6 m c (Proc.devRef .tc main_arg2) = m ((c : Thread nD τ).loc main_arg2) :=
  (W6_of_ne m c main_arg2 (by decide)).trans <| (W5_of m c main_arg2 (by decide)).trans <| (W4_of m c main_arg2 (by decide)).trans <| (W3_of_ne m c main_arg2 (by decide)).trans <| (W2_of m c main_arg2 (by decide)).trans <| (W1_of m c main_arg2 (by decide)).trans <| rfl
/-- The third kernel's input array at its entry is argument 2 padded by 480 atoms. -/
theorem U8_main_v7 (c : Dev nD) : U8 m c main_v7
    = pad S20480x5x32 ![0, 0, 0] ![480, 0, 0] ![0, 0, 0] (m ((c : Thread nD τ).loc main_arg2)) (padValue (F := F))
        pads_S20000x5x32_S20480x5x32_04800_000_000 h_S_ := by
  rw [← W6_main_arg2 m c]
  show StableHlo.after hostOps2_1 _ (Proc.devRef .tc main_v7) = _
  after_results <;> rfl
/-- Argument 3 reaches the fourth padding as launched. -/
theorem W9_main_arg3 (c : Dev nD) : W9 m c (Proc.devRef .tc main_arg3) = m ((c : Thread nD τ).loc main_arg3) :=
  (W9_of_ne m c main_arg3 (by decide)).trans <| (W8_of m c main_arg3 (by decide)).trans <| (W7_of m c main_arg3 (by decide)).trans <| (W6_of_ne m c main_arg3 (by decide)).trans <| (W5_of m c main_arg3 (by decide)).trans <| (W4_of m c main_arg3 (by decide)).trans <| (W3_of_ne m c main_arg3 (by decide)).trans <| (W2_of m c main_arg3 (by decide)).trans <| (W1_of m c main_arg3 (by decide)).trans <| rfl
/-- The fourth kernel's input array at its entry is argument 3 padded by 480 atoms. -/
theorem U11_main_v10 (c : Dev nD) : U11 m c main_v10
    = pad S20480x7x32 ![0, 0, 0] ![480, 0, 0] ![0, 0, 0] (m ((c : Thread nD τ).loc main_arg3)) (padValue (F := F))
        pads_S20000x7x32_S20480x7x32_04800_000_000 h_S_ := by
  rw [← W9_main_arg3 m c]
  show StableHlo.after hostOps3_1 _ (Proc.devRef .tc main_v10) = _
  after_results <;> rfl

end Cert.KernelIdeal.Gram

end
-- ==== Proof.Gram3Spec.lean ====
/-
  The Gram array of a (20480, 7, 32) input x, as one function of x read index by index over the extended reals:
  entry (c*32 + d, a) is the sum over the angular index k of x[a, k, c] * x[a, k, d].  This is what the kernel's
  fourth call leaves in its (1024, 20480) output: atoms along the last axis, channel pairs (c, d) flattened
  row-major along the first.
-/
import proofs.«155527_j19035295055889_1_alg».proof.KernelIdeal
import Idealize.ShloMosaic.Lib.ValueIdx

noncomputable section

open scoped BigOperators

namespace Cert.KernelIdeal.Gram

open Cert.KernelIdeal
open Idealize.ShloMosaic Idealize.ShloMosaic.ValueIdx

/-- Row r = c*32 + d of the output names the channel pair (c, d) = (r / 32, r % 32). -/
def gram3 (x : FVec Ideal S20480x7x32 .f32) : FVec Ideal S1024x20480 .f32 := fun j =>
  ∑ k : Fin 7,
    x (ix3 (⟨(j 1).val, idx2_lt1 j⟩ : Fin 20480) k (⟨(j 0).val / 32, by have := idx2_lt0 j; omega⟩ : Fin 32))
      * x (ix3 (⟨(j 1).val, idx2_lt1 j⟩ : Fin 20480) k (⟨(j 0).val % 32, Nat.mod_lt _ (by decide)⟩ : Fin 32))

end Cert.KernelIdeal.Gram

end
-- ==== Proof.Gram3Value.lean ====
/-
  The kernel side of region 3 over the extended reals: what the pipeline's 20 points leave in the (1024, 20480)
  output array is the Gram array `gram3` of the (20480, 7, 32) input array as the region found it.

  The stored block at an index.  From a loaded block x0 : (1024, 7, 32) the body stores the (1024, 1024) block whose
  entry (r, a) is the sum over the angular index k of x0[a, k, r / 32] * x0[a, k, r % 32]: the flattening
  (32, 32, 1024) -> (1024, 1024) keeps the row-major position, so row r names the channel pair (r / 32, r % 32) and
  the column is the atom; the transpose by [1, 2, 0] moves the atom from the first axis to the last; the product into
  the zero accumulator, with the atom as batch axis and the angular axis contracted, is the plain sum of products;
  and over the extended reals the narrowing format change and the cast to the same shape are the identity.

  One point.  Output block t is all 1024 rows and the columns t*1024 .. t*1024 + 1023; input block t is the atoms
  t*1024 .. t*1024 + 1023 with all of the other two axes (an element of a block sits in its array at block index
  times block size plus its own coordinate).  So what point t writes back is block t of the Gram array of the input.

  The cover.  Column a of the output lies in the block of point a / 1024, and every point writes its block back;
  hence the array ends holding the Gram array everywhere.
-/
import proofs.«155527_j19035295055889_1_alg».proof.Proof.Region3
import proofs.«155527_j19035295055889_1_alg».proof.Proof.Gram3Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gram

open Cert.KernelIdeal Cert.KernelIdeal.Gen
open Idealize.ShloMosaic Idealize.ShloMosaic.TcCoe Idealize.ShloMosaic.ValueIdx Idealize.SL.Sem
open Idealize.ShloMosaic.Pipeline (Dat)

/-! ## The product's operand indices, axis by axis -/

theorem lhs_dot3_0 (i : S1024x32x32.Idx) (q : dot_S1024x7x32_S1024x7x32_S1024x32x32_1_1_2_2_0_0.contr.Idx) :
    (dot_S1024x7x32_S1024x7x32_S1024x32x32_1_1_2_2_0_0.lhsIdx i q 0).val = (i 0).val := by
  unfold DotDims.lhsIdx
  rw [dif_pos (show (0 : Fin S1024x7x32.rank) ∈ dot_S1024x7x32_S1024x7x32_S1024x32x32_1_1_2_2_0_0.lhsBatch by decide)]
  rfl
theorem lhs_dot3_1 (i : S1024x32x32.Idx) (q : dot_S1024x7x32_S1024x7x32_S1024x32x32_1_1_2_2_0_0.contr.Idx) :
    (dot_S1024x7x32_S1024x7x32_S1024x32x32_1_1_2_2_0_0.lhsIdx i q 1).val = (q ⟨0, by decide⟩).val :=
  dot_S1024x7x32_S1024x7x32_S1024x32x32_1_1_2_2_0_0.lhsIdx_val_of_single rfl i q
theorem lhs_dot3_2 (i : S1024x32x32.Idx) (q : dot_S1024x7x32_S1024x7x32_S1024x32x32_1_1_2_2_0_0.contr.Idx) :
    (dot_S1024x7x32_S1024x7x32_S1024x32x32_1_1_2_2_0_0.lhsIdx i q 2).val = (i 1).val := by
  unfold DotDims.lhsIdx
  rw [dif_neg (show ¬(2 : Fin S1024x7x32.rank) ∈ dot_S1024x7x32_S1024x7x32_S1024x32x32_1_1_2_2_0_0.lhsBatch by decide), dif_pos (show (2 : Fin S1024x7x32.rank) ∈ dot_S1024x7x32_S1024x7x32_S1024x32x32_1_1_2_2_0_0.lhsNonContracting by decide)]
  rfl
theorem rhs_dot3_0 (i : S1024x32x32.Idx) (q : dot_S1024x7x32_S1024x7x32_S1024x32x32_1_1_2_2_0_0.contr.Idx) :
    (dot_S1024x7x32_S1024x7x32_S1024x32x32_1_1_2_2_0_0.rhsIdx i q 0).val = (i 0).val := by
  unfold DotDims.rhsIdx
  rw [dif_pos (show (0 : Fin S1024x7x32.rank) ∈ dot_S1024x7x32_S1024x7x32_S1024x32x32_1_1_2_2_0_0.rhsBatch by decide)]
  rfl
theorem rhs_dot3_1 (i : S1024x32x32.Idx) (q : dot_S1024x7x32_S1024x7x32_S1024x32x32_1_1_2_2_0_0.contr.Idx) :
    (dot_S1024x7x32_S1024x7x32_S1024x32x32_1_1_2_2_0_0.rhsIdx i q 1).val = (q ⟨0, by decide⟩).val :=
  dot_S1024x7x32_S1024x7x32_S1024x32x32_1_1_2_2_0_0.rhsIdx_val_of_single rfl i q
theorem rhs_dot3_2 (i : S1024x32x32.Idx) (q : dot_S1024x7x32_S1024x7x32_S1024x32x32_1_1_2_2_0_0.contr.Idx) :
    (dot_S1024x7x32_S1024x7x32_S1024x32x32_1_1_2_2_0_0.rhsIdx i q 2).val = (i 2).val := by
  unfold DotDims.rhsIdx
  rw [dif_neg (show ¬(2 : Fin S1024x7x32.rank) ∈ dot_S1024x7x32_S1024x7x32_S1024x32x32_1_1_2_2_0_0.rhsBatch by decide), dif_pos (show (2 : Fin S1024x7x32.rank) ∈ dot_S1024x7x32_S1024x7x32_S1024x32x32_1_1_2_2_0_0.rhsNonContracting by decide)]
  rfl

/-- The block's product into the zero accumulator, read at atom a and channels c, d: the sum over the
    angular index of the two operands' entries. -/
theorem matmul3_apply (y : FVec Ideal S1024x7x32 .bf16) (a : Fin 1024) (c d : Fin 32) :
    matmul dot_S1024x7x32_S1024x7x32_S1024x32x32_1_1_2_2_0_0 none y y (constant S1024x32x32 .f32 0x00000000#32) (ix3 a c d)
      = ∑ k : Fin 7, y (ix3 a k c) * y (ix3 a k d) := by
  simp only [matmul]
  rw [Ideal.matmul_constant_zero_apply, ← Equiv.sum_comp (ValueIdx.contrEquiv1 dot_S1024x7x32_S1024x7x32_S1024x32x32_1_1_2_2_0_0 7 rfl rfl).symm]
  refine Finset.sum_congr rfl fun k _ => ?_
  have hk := ValueIdx.contrEquiv1_symm_val dot_S1024x7x32_S1024x7x32_S1024x32x32_1_1_2_2_0_0 7 rfl rfl k
  have el : dot_S1024x7x32_S1024x7x32_S1024x32x32_1_1_2_2_0_0.lhsIdx (ix3 a c d) ((ValueIdx.contrEquiv1 dot_S1024x7x32_S1024x7x32_S1024x32x32_1_1_2_2_0_0 7 rfl rfl).symm k) = ix3 a k c := funext fun b => Fin.ext (by
    match b with
    | ⟨0, _⟩ => exact lhs_dot3_0 _ _
    | ⟨1, _⟩ => exact (lhs_dot3_1 _ _).trans hk
    | ⟨2, _⟩ => exact lhs_dot3_2 _ _)
  have er : dot_S1024x7x32_S1024x7x32_S1024x32x32_1_1_2_2_0_0.rhsIdx (ix3 a c d) ((ValueIdx.contrEquiv1 dot_S1024x7x32_S1024x7x32_S1024x32x32_1_1_2_2_0_0 7 rfl rfl).symm k) = ix3 a k d := funext fun b => Fin.ext (by
    match b with
    | ⟨0, _⟩ => exact rhs_dot3_0 _ _
    | ⟨1, _⟩ => exact (rhs_dot3_1 _ _).trans hk
    | ⟨2, _⟩ => exact rhs_dot3_2 _ _)
  rw [el, er]

/-- The stored block at row r (the channel pair (r / 32, r % 32)) and atom a: the angular sum of the
    loaded block's products. -/
theorem pay3_apply (x0 : Vec Ideal S1024x7x32 .f32) (r a : Fin 1024) :
    k3_pay1 (F := Ideal) x0 (ix2 r a)
      = ∑ k : Fin 7, x0 (ix3 a k (⟨r.val / 32, by omega⟩ : Fin 32)) * x0 (ix3 a k (⟨r.val % 32, Nat.mod_lt _ (by decide)⟩ : Fin 32)) := by
  unfold k3_pay1
  refine (shapeCast_apply _ shapeCasts_S32x32x1024_S1024x1024 (ix2 r a)
    (ix3 (⟨r.val / 32, by omega⟩ : Fin 32) (⟨r.val % 32, Nat.mod_lt _ (by decide)⟩ : Fin 32) a) ?_).trans ?_
  · rw [Shape.rowMajor_val_three, Shape.rowMajor_val_two]
    show (r.val / 32 * 32 + r.val % 32) * 1024 + a.val = r.val * 1024 + a.val
    omega
  refine (transpose_apply [1, 2, 0] _ transposes_S1024x32x32_p1_2_0_S32x32x1024
    (ix3 (⟨r.val / 32, by omega⟩ : Fin 32) (⟨r.val % 32, Nat.mod_lt _ (by decide)⟩ : Fin 32) a)
    (ix3 a (⟨r.val / 32, by omega⟩ : Fin 32) (⟨r.val % 32, Nat.mod_lt _ (by decide)⟩ : Fin 32)) ?_).trans ?_
  · intro b
    match b with
    | ⟨0, _⟩ => rfl
    | ⟨1, _⟩ => rfl
    | ⟨2, _⟩ => rfl
  rw [matmul3_apply]
  simp only [truncf_apply, shapeCast_self]

/-! ## From the blocks to the array -/

theorem hz3_out : (![0, 0] : Fin 2 → Nat) = fun _ => 0 :=
  funext fun a => match a with | ⟨0, _⟩ => rfl | ⟨1, _⟩ => rfl
theorem hz3_in : (![0, 0, 0] : Fin 3 → Nat) = fun _ => 0 :=
  funext fun a => match a with | ⟨0, _⟩ => rfl | ⟨1, _⟩ => rfl | ⟨2, _⟩ => rfl

/-- The two index maps over the 20 points: the output's block t is all rows and the t-th run of 1024 columns,
    the input's block t the t-th run of 1024 atoms and all of the other two axes. -/
theorem idx_facts3 : ∀ t : Fin cfg3.N, win3_1.index t (0 : Fin 2) = 0 ∧ win3_1.index t (1 : Fin 2) = t.val
    ∧ win3_0.index t (0 : Fin 3) = t.val ∧ win3_0.index t (1 : Fin 3) = 0 ∧ win3_0.index t (2 : Fin 3) = 0 :=
  (by decide +kernel : ∀ t : Fin grid3.N, _)

/-- One block against the array. If the block x0 holds the atoms T*1024 .. T*1024+1023 of the array X, and the
    array index i sits at row y 0 and column T*1024 + y 1, the stored block at y is the Gram array of X at i. -/
theorem pay3_eq_gram3 (x0 : Vec Ideal S1024x7x32 .f32) (X : FVec Ideal S20480x7x32 .f32) (T : Nat)
    (hx : ∀ (a : Fin 1024) (k : Fin 7) (c : Fin 32) (p : S20480x7x32.Idx),
      (p 0).val = T * 1024 + a.val → (p 1).val = k.val → (p 2).val = c.val → x0 (ix3 a k c) = X p)
    (y : S1024x1024.Idx) (i : S1024x20480.Idx) (h0 : (i 0).val = (y 0).val) (h1 : (i 1).val = T * 1024 + (y 1).val) :
    k3_pay1 (F := Ideal) x0 y = gram3 X i := by
  obtain ⟨r, a, rfl⟩ : ∃ (r : Fin 1024) (a : Fin 1024), y = ix2 r a := ⟨y 0, y 1, eq_ix2 y⟩
  have h0' : (i 0).val = r.val := h0
  have h1' : (i 1).val = T * 1024 + a.val := h1
  rw [pay3_apply]
  unfold gram3
  refine Finset.sum_congr rfl fun k _ => ?_
  refine congrArg₂ (· * ·) ?_ ?_
  · exact hx a k _ _ h1' rfl (by show (i 0).val / 32 = r.val / 32; rw [h0'])
  · exact hx a k _ _ h1' rfl (by show (i 0).val % 32 = r.val % 32; rw [h0'])

/-- What point t writes back is block t of the Gram array of the input array as the region found it. -/
theorem flushed3_eq (V : (c : Dev nD) → (b : Ref sig .tc) → Buf (Elt Ideal) ((c : Thread nD τ).loc b)) (c : Dev nD) (t : Fin cfg3.N) :
    (dat3 (F := Ideal) V c).flushed 1 t = ((cfg3.win 1).blk t).view.read (Elt Ideal) (gram3 (V c main_v10)) := by
  show (cfg3.win 1).cut (grid3.coords t) ((dat3 (F := Ideal) V c).after 1 t) = _
  rw [after3_1]
  unfold out3_1
  rw [View.canon_unit_zero hz3_out]
  simp only [View.ld_unit_zero (S := S1024x7x32) hz3_in]
  obtain ⟨e0, e1, e2, e3, e4⟩ := idx_facts3 t
  funext j
  show k3_pay1 (F := Ideal) (iblk3 V c 0 t) ((cfg3.win 1).xinj (grid3.coords t) j)
    = gram3 (V c main_v10) (((cfg3.win 1).blk t).view.emb j)
  refine pay3_eq_gram3 (iblk3 V c 0 t) (V c main_v10) t.val ?_ _ _ ?_ ?_
  · intro a k d p hp0 hp1 hp2
    show V c main_v10 (((cfg3.win 0).blk t).view.emb (ix3 a k d)) = V c main_v10 p
    refine congrArg _ (funext fun b => Fin.ext ?_)
    match b with
    | ⟨0, _⟩ => show win3_0.index t (0 : Fin 3) * 1024 + 1 * a.val = (p 0).val; omega
    | ⟨1, _⟩ => show win3_0.index t (1 : Fin 3) * 7 + 1 * k.val = (p 1).val; omega
    | ⟨2, _⟩ => show win3_0.index t (2 : Fin 3) * 32 + 1 * d.val = (p 2).val; omega
  · show win3_1.index t (0 : Fin 2) * 1024 + 1 * (j 0).val = (j 0).val
    omega
  · show win3_1.index t (1 : Fin 2) * 1024 + 1 * (j 1).val = t.val * 1024 + (j 1).val
    omega

/-- An index of the output array is in point t's block exactly when each coordinate is in the block's range. -/
theorem mem_blk3 (t : Fin cfg3.N) (i : S1024x20480.Idx) :
    i ∈ ((cfg3.win 1).blk t).view.set ↔ ∀ a : Fin 2, win3_1.index t a * S1024x1024.size a ≤ (i a).val
      ∧ (i a).val < win3_1.index t a * S1024x1024.size a + S1024x1024.size a := by
  show i ∈ ((View.whole main_v11).slice (win3_1.rect t)).set ↔ _
  rw [View.set_slice_whole, Rect.mem_set_unit]
  exact Iff.rfl

/-- Every index of the output array is in some point's block: column a belongs to point a / 1024, and every
    point writes its block back. -/
theorem cover3 (i : S1024x20480.Idx) :
    ∃ t : Fin cfg3.N, (cfg3.win 1).flush t = true ∧ i ∈ ((cfg3.win 1).blk t).view.set := by
  have hi0 : (i 0).val < 1024 := idx2_lt0 i
  have hi1 : (i 1).val < 20480 := idx2_lt1 i
  have hN : grid3.N = 20 := N_3
  have ht : (i 1).val / 1024 < cfg3.N := by show (i 1).val / 1024 < grid3.N; rw [hN]; omega
  obtain ⟨e0, e1, -, -, -⟩ := idx_facts3 ⟨(i 1).val / 1024, ht⟩
  have e1' : win3_1.index ⟨(i 1).val / 1024, ht⟩ (1 : Fin 2) = (i 1).val / 1024 := e1
  refine ⟨⟨(i 1).val / 1024, ht⟩, flush3_1 _, ?_⟩
  rw [mem_blk3]
  intro a
  match a with
  | ⟨0, _⟩ =>
    show win3_1.index ⟨(i 1).val / 1024, ht⟩ (0 : Fin 2) * 1024 ≤ (i 0).val
      ∧ (i 0).val < win3_1.index ⟨(i 1).val / 1024, ht⟩ (0 : Fin 2) * 1024 + 1024
    omega
  | ⟨1, _⟩ =>
    show win3_1.index ⟨(i 1).val / 1024, ht⟩ (1 : Fin 2) * 1024 ≤ (i 1).val
      ∧ (i 1).val < win3_1.index ⟨(i 1).val / 1024, ht⟩ (1 : Fin 2) * 1024 + 1024
    omega

/-- After the pipeline's 20 points the output array holds the Gram array of the input array as the region found it. -/
theorem final3 (V : (c : Dev nD) → (b : Ref sig .tc) → Buf (Elt Ideal) ((c : Thread nD τ).loc b)) (c : Dev nD) :
    (dat3 (F := Ideal) V c).arrAt 1 cfg3.N = gram3 (V c main_v10) :=
  (dat3 (F := Ideal) V c).arrAt_eq_of_cover 1 (gram3 (V c main_v10)) (fun t _ => flushed3_eq V c t) cover3

end Cert.KernelIdeal.Gram

end
-- ==== Proof.Gram3Bridge.lean ====
/-
  The bridge between the kernel's Gram array and the reference's value, over the extended reals.

  The kernel's fourth call works on the argument padded from 20000 to 20480 atoms and its (1024, 20480) result is cut
  back to the first 20000 columns.  Entry (r, n) of the Gram array of the padded input, for an atom n below 20000,
  reads only the atom n of the padded input, which is the atom n of the argument: the padding never enters.  With
  r = c*32 + d it is the sum over the angular index k of arg[n, k, c] * arg[n, k, d].  The reference forms the batched
  product P[n, c', d'] = sum over k of arg[n, k, c'] * arg[n, k, d'], transposes it to T[d', c', n] and flattens the
  two leading axes, so its entry (r, n) is P[n, r % 32, r / 32] = sum over k of arg[n, k, r % 32] * arg[n, k, r / 32]:
  the same products with the two factors exchanged.  Multiplication of extended reals is commutative, so the two sums
  agree term by term; nothing is asked of the values (no finiteness).
-/
import proofs.«155527_j19035295055889_1_alg».proof.Proof.Gram3Spec
import proofs.«155527_j19035295055889_1_alg».proof.Proof.Gen.KernelIdeal
import proofs.«155527_j19035295055889_1_alg».proof.Proof.Gen.ReferenceIdeal.Read
import Idealize.ShloMosaic.Lib.KernelVsHost
import Idealize.ShloMosaic.Lib.Pipeline.Value
import Idealize.ShloMosaic.Lib.ValueIdx

noncomputable section

open scoped BigOperators

namespace Cert.KernelIdeal.Gram

open Cert.KernelIdeal
open Idealize.ShloMosaic Idealize.ShloMosaic.ValueIdx

/-- The padded argument at an atom below 20000 is the argument at that atom: the padding sits after the last atom,
    and there is none on the other two axes. -/
theorem pad3_apply (a : FVec Ideal S20000x7x32 .f32) (z : FVec Ideal S_ .f32) (n : Fin 20480) (hn : n.val < 20000)
    (k : Fin 7) (c : Fin 32) :
    pad S20480x7x32 ![0, 0, 0] ![480, 0, 0] ![0, 0, 0] a z
        Cert.KernelIdeal.Gen.pads_S20000x7x32_S20480x7x32_04800_000_000 Cert.KernelIdeal.Gen.h_S_ (ix3 n k c)
      = a (ix3 (⟨n.val, hn⟩ : Fin 20000) k c) :=
  pad_apply_of_inside ![0, 0, 0] ![480, 0, 0] ![0, 0, 0] a z
    Cert.KernelIdeal.Gen.pads_S20000x7x32_S20480x7x32_04800_000_000 Cert.KernelIdeal.Gen.h_S_
    (ix3 n k c) (ix3 (⟨n.val, hn⟩ : Fin 20000) k c) (fun b => match b with
      | ⟨0, _⟩ => by show n.val = 0 + n.val * (0 + 1); omega
      | ⟨1, _⟩ => by show k.val = 0 + k.val * (0 + 1); omega
      | ⟨2, _⟩ => by show c.val = 0 + c.val * (0 + 1); omega)

/-- The Gram array of the padded argument, cut back to the first 20000 columns, read at row r and atom n: the sum over
    the angular index of the argument's products for the channel pair (r / 32, r % 32) at atom n. -/
theorem left3_apply (a : FVec Ideal S20000x7x32 .f32) (z : FVec Ideal S_ .f32) (r : Fin 1024) (n : Fin 20000) :
    extractStridedSlice S1024x20000 ![0, 0]
        (gram3 (pad S20480x7x32 ![0, 0, 0] ![480, 0, 0] ![0, 0, 0] a z
          Cert.KernelIdeal.Gen.pads_S20000x7x32_S20480x7x32_04800_000_000 Cert.KernelIdeal.Gen.h_S_))
        Cert.KernelIdeal.Gen.slices_S1024x20480_S1024x20000_0_0 (ix2 r n)
      = ∑ k : Fin 7,
          a (ix3 n k (⟨r.val / 32, by have := r.isLt; omega⟩ : Fin 32))
            * a (ix3 n k (⟨r.val % 32, Nat.mod_lt _ (by decide)⟩ : Fin 32)) := by
  rw [extractStridedSlice_apply ![0, 0] _ Cert.KernelIdeal.Gen.slices_S1024x20480_S1024x20000_0_0 (ix2 r n)
    (ix2 r (⟨n.val, by have := n.isLt; omega⟩ : Fin 20480)) (fun b => match b with
      | ⟨0, _⟩ => by show r.val = 0 + r.val; omega
      | ⟨1, _⟩ => by show n.val = 0 + n.val; omega)]
  unfold gram3
  refine Finset.sum_congr rfl fun k _ => ?_
  exact congrArg₂ (· * ·) (pad3_apply a z _ n.isLt k _) (pad3_apply a z _ n.isLt k _)

/-- The reference's reshaped, transposed batched product read at row r and atom n: the sum over the angular index of
    the argument's products for the channel pair (r % 32, r / 32) at atom n. -/
theorem right3_apply (a : FVec Ideal S20000x7x32 .f32) (r : Fin 1024) (n : Fin 20000) :
    Cert.ReferenceIdeal.Read.val_main_v12 (F := Ideal) a (ix2 r n)
      = ∑ k : Fin 7,
          a (ix3 n k (⟨r.val % 32, Nat.mod_lt _ (by decide)⟩ : Fin 32))
            * a (ix3 n k (⟨r.val / 32, by have := r.isLt; omega⟩ : Fin 32)) := by
  rw [Cert.ReferenceIdeal.Read.val_main_v12_apply, Cert.ReferenceIdeal.Read.val_main_v11_apply,
    Cert.ReferenceIdeal.Read.val_main_v10_apply]
  have hr := r.isLt
  have hn := n.isLt
  refine Finset.sum_congr rfl fun k _ => ?_
  have el : Cert.ReferenceIdeal.Read.lidx_main_v10
      (Cert.ReferenceIdeal.Read.idx_main_v11 (Cert.ReferenceIdeal.Read.idx_main_v12 (ix2 r n))) k
      = ix3 n k (⟨r.val % 32, Nat.mod_lt _ (by decide)⟩ : Fin 32) := funext fun b => Fin.ext (by
    match b with
    | ⟨0, _⟩ => show (r.val * 20000 + n.val) % 20000 = n.val; omega
    | ⟨1, _⟩ => rfl
    | ⟨2, _⟩ => show (r.val * 20000 + n.val) / 20000 % 32 = r.val % 32; omega)
  have er : Cert.ReferenceIdeal.Read.ridx_main_v10
      (Cert.ReferenceIdeal.Read.idx_main_v11 (Cert.ReferenceIdeal.Read.idx_main_v12 (ix2 r n))) k
      = ix3 n k (⟨r.val / 32, by omega⟩ : Fin 32) := funext fun b => Fin.ext (by
    match b with
    | ⟨0, _⟩ => show (r.val * 20000 + n.val) % 20000 = n.val; omega
    | ⟨1, _⟩ => rfl
    | ⟨2, _⟩ => show (r.val * 20000 + n.val) / 640000 = r.val / 32; omega)
  rw [el, er]

/-- Padding the argument with 480 more atoms (of any value), taking the Gram array and slicing the first 20000
    columns back out is the reference's reshaped, transposed batched product of the argument with itself. -/
theorem bridge3 (a : FVec Ideal S20000x7x32 .f32) (z : FVec Ideal S_ .f32) :
    extractStridedSlice S1024x20000 ![0, 0]
        (gram3 (pad S20480x7x32 ![0, 0, 0] ![480, 0, 0] ![0, 0, 0] a z
          Cert.KernelIdeal.Gen.pads_S20000x7x32_S20480x7x32_04800_000_000 Cert.KernelIdeal.Gen.h_S_))
        Cert.KernelIdeal.Gen.slices_S1024x20480_S1024x20000_0_0
      = Cert.ReferenceIdeal.Read.val_main_v12 (F := Ideal) a := by
  funext i
  obtain ⟨r, n, rfl⟩ : ∃ (r : Fin 1024) (n : Fin 20000), i = ix2 r n :=
    ⟨⟨(i 0).val, idx2_lt0 i⟩, ⟨(i 1).val, idx2_lt1 i⟩, funext fun d => match d with | ⟨0, _⟩ => rfl | ⟨1, _⟩ => rfl⟩
  rw [left3_apply, right3_apply]
  exact Finset.sum_congr rfl fun k _ => mul_comm _ _

end Cert.KernelIdeal.Gram

end
-- ==== Proof.KernelValue.lean ====
/-
  The kernel program's result over the extended reals, as the reference's own stages of the launch arguments.
  The result is the concatenation of the reshaped first argument and of the four kernels' outputs cut back to 20000
  columns.  Each kernel's output array ends as the Gram array of its input array, the argument padded by 480 atoms;
  cut back to the first 20000 columns that is the reference's reshaped, transposed batched product of the argument
  with itself (the products' factors exchanged, which the commutativity of multiplication absorbs).  So the
  concatenation is the reference's last stage, piece by piece.
-/
import proofs.«155527_j19035295055889_1_alg».proof.Proof.Run
import proofs.«155527_j19035295055889_1_alg».proof.Proof.FoldValue
import proofs.«155527_j19035295055889_1_alg».proof.Proof.Gram0Value
import proofs.«155527_j19035295055889_1_alg».proof.Proof.Gram1Value
import proofs.«155527_j19035295055889_1_alg».proof.Proof.Gram2Value
import proofs.«155527_j19035295055889_1_alg».proof.Proof.Gram3Value
import proofs.«155527_j19035295055889_1_alg».proof.Proof.Gram0Bridge
import proofs.«155527_j19035295055889_1_alg».proof.Proof.Gram1Bridge
import proofs.«155527_j19035295055889_1_alg».proof.Proof.Gram2Bridge
import proofs.«155527_j19035295055889_1_alg».proof.Proof.Gram3Bridge
import proofs.«155527_j19035295055889_1_alg».proof.Proof.Gen.ReferenceIdeal.Read

set_option maxRecDepth 16384

noncomputable section

namespace Cert.KernelIdeal.Gram

open Cert.KernelIdeal Cert.KernelIdeal.Gen
open Idealize.ShloMosaic Idealize.ShloMosaic.TcCoe
open Idealize.SL Idealize.SL.Sem

variable (m : (ℓ : Loc nD τ sig) → Buf (Elt Ideal) ℓ)

/-- At the return the result buffer holds the reference's last stage of the four launch arguments. -/
theorem W13_result (c : Dev nD) : W13 (F := Ideal) m c (Proc.devRef .tc main_v13)
    = Cert.ReferenceIdeal.Read.val_main_v13 (F := Ideal) (m ((c : Thread nD τ).loc main_arg0)) (m ((c : Thread nD τ).loc main_arg1))
        (m ((c : Thread nD τ).loc main_arg2)) (m ((c : Thread nD τ).loc main_arg3)) := by
  rw [W13_main_v13, W12_main_v0, W12_main_v3, W12_main_v6, W12_main_v9, W12_main_v11,
    final0, final1, final2, final3, U2_main_v1, U5_main_v4, U8_main_v7, U11_main_v10,
    bridge0, bridge1, bridge2, bridge3]
  rfl

/-- THE RUN WITH ITS VALUE, over the extended reals: every weakly fair execution terminates, nothing faulting, with
    the result buffer at the reference's last stage of the launch arguments and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v13)
          = Cert.ReferenceIdeal.Read.val_main_v13 (F := Ideal) (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v13 (by decide))).trans (W13_result m c),
     (h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c)⟩)
    (run_main (F := Ideal) m ρ)

end Cert.KernelIdeal.Gram

end
-- ==== Proof.lean ====
/-
  The certificate: the Pallas Gram-matrix kernel (four calls, one per angular extent 1, 3, 5, 7, each over the
  argument padded to 20480 atoms, their outputs cut back to 20000 atoms and stacked under the reshaped first
  argument) against the jnp reference (four batched products, transposed and reshaped, stacked the same way).

  * The three frames.  The two kernel programs run as thirteen items (host stretches and the four pipelined
    regions); no item writes an argument.  The reference is host operations only.
  * The idealization rewrote nothing, so there is nothing to preserve.
  * Over the extended reals the kernel's entry (c*32+d, a) of a block is the sum over the angular index of
    x[a,.,c] * x[a,.,d] and the reference's is the same sum with the factors exchanged: equal by the
    commutativity of multiplication, with no condition on the values.  The padding atoms never reach a kept column.
-/
import proofs.«155527_j19035295055889_1_alg».proof.Defs
import proofs.«155527_j19035295055889_1_alg».proof.Proof.Gen.Kernel
import proofs.«155527_j19035295055889_1_alg».proof.Proof.Gen.KernelIdeal
import proofs.«155527_j19035295055889_1_alg».proof.Proof.Gen.ReferenceIdeal
import proofs.«155527_j19035295055889_1_alg».proof.Proof.Gen.Pre_finite_inputs
import proofs.«155527_j19035295055889_1_alg».proof.Proof.Gen.ReferenceIdeal.Run
import proofs.«155527_j19035295055889_1_alg».proof.Proof.Gen.ReferenceIdeal.Read
import proofs.«155527_j19035295055889_1_alg».proof.Proof.BitsRun
import proofs.«155527_j19035295055889_1_alg».proof.Proof.KernelValue

noncomputable section

namespace Cert.Proof

open Idealize.ShloMosaic Idealize.ShloMosaic.TcCoe Idealize.SL.Sem

/-- The word-level kernel program terminates without a fault and leaves its arguments as launched. -/
theorem frame_p : Cert.frame_Kernel := fun m ρ _ =>
  (θ_run Cert.Kernel.defs _ _).mono (fun r h c =>
    ⟨(h c _ (Cert.Kernel.Gram.mem_uc Cert.Kernel.main_arg0 (by decide))).trans (Cert.Kernel.Gram.W13_main_arg0 m c),
     (h c _ (Cert.Kernel.Gram.mem_uc Cert.Kernel.main_arg1 (by decide))).trans (Cert.Kernel.Gram.W13_main_arg1 m c),
     (h c _ (Cert.Kernel.Gram.mem_uc Cert.Kernel.main_arg2 (by decide))).trans (Cert.Kernel.Gram.W13_main_arg2 m c),
     (h c _ (Cert.Kernel.Gram.mem_uc Cert.Kernel.main_arg3 (by decide))).trans (Cert.Kernel.Gram.W13_main_arg3 m c)⟩)
    (Cert.Kernel.Gram.run_main (F := Bits) m ρ)

/-- So does the idealized kernel program, over the extended reals. -/
theorem frame_pi : Cert.frame_KernelIdeal := fun m ρ _ =>
  (θ_run Cert.KernelIdeal.defs _ _).mono (fun _ h c => (h c).2) (Cert.KernelIdeal.Gram.run_value m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at the reference's last stage of
    those arguments. -/
theorem algebraic : Cert.algebraic_KernelIdeal_ReferenceIdeal := by
  intro m ρ m' ρ' _ hagree
  refine ⟨fun c => Cert.ReferenceIdeal.Read.val_main_v13 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Gram.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
